-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x256 : Shape := ⟨2, ![5000, 256]⟩
abbrev S850000x256 : Shape := ⟨2, ![850000, 256]⟩
abbrev S1x256 : Shape := ⟨2, ![1, 256]⟩
abbrev S50000x128 : Shape := ⟨2, ![50000, 128]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 84
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x128, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x128, .f32⟩
  | .hbm, ⟨75, _⟩ => ⟨S850000x1, .f32⟩
  | .hbm, ⟨76, _⟩ => ⟨S850000x128, .f32⟩
  | .hbm, ⟨77, _⟩ => ⟨S850000x128, .f32⟩
  | .hbm, ⟨78, _⟩ => ⟨S_, .f32⟩
  | .hbm, ⟨79, _⟩ => ⟨S50000x128, .f32⟩
  | .hbm, ⟨80, _⟩ => ⟨S850000x1, .i32⟩
  | .hbm, ⟨81, _⟩ => ⟨S50000x128, .f32⟩
  | .hbm, ⟨82, _⟩ => ⟨S1x128, .f32⟩
  | .hbm, ⟨83, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  The mathematics of a two-layer graph convolution, on the extended reals, as far as the two programs differ in how
  they spell it. Both programs aggregate over the edges by the same host operations; they differ in the dense parts:
  a matrix product, and the addition of a bias row (followed, in the first layer, by the maximum with zero).
  This module states those dense parts index by index:
    * `matProd x w`     : entry (r, j) is the sum over k of x(r, k) * w(k, j);
    * `addRow a b`      : entry (r, j) is a(r, j) + b(j);
    * `reluAddRow a b`  : entry (r, j) is max (a(r, j) + b(j)) 0;
  and reads the host's spelling of each (a plain `dot_general`; a bias vector broadcast to one row and then over the
  rows and added; the maximum with a splat of zero) as these functions.
-/
import Idealize.ShloMosaic.PureOps.Ideal.Laws
import Idealize.ShloMosaic.Lib.ValueIdx
import Idealize.ShloMosaic.Lib.KernelVsHost
import Idealize.ShloMosaic.Lib.StackMember
import Idealize.ShloMosaic.Lib.Pipeline.Value

noncomputable section

open scoped BigOperators
open Idealize.ShloMosaic Idealize.ShloMosaic.ValueIdx

namespace Cert.Gcn

/-- The product of an M × K matrix by a K × N matrix: entry (r, j) is ∑ₖ x(r, k) · w(k, j). -/
def matProd {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (i 0) k) * w (ix2 (n1 := N) k (i 1))

/-- A row added to every row of a matrix: entry (r, j) is a(r, j) + b(j). -/
def addRow {M N : ℕ} (a : (⟨2, ![M, N]⟩ : Shape).Idx → EReal) (b : Fin N → EReal) :
    (⟨2, ![M, N]⟩ : Shape).Idx → EReal :=
  fun i => a i + b (i 1)

/-- The same followed by the maximum with zero: entry (r, j) is max (a(r, j) + b(j)) 0. -/
def reluAddRow {M N : ℕ} (a : (⟨2, ![M, N]⟩ : Shape).Idx → EReal) (b : Fin N → EReal) :
    (⟨2, ![M, N]⟩ : Shape).Idx → EReal :=
  fun i => max (a i + b (i 1)) 0

theorem matProd_ix2 {M K N : ℕ} (x : (⟨2, ![M, K]⟩ : Shape).Idx → EReal) (w : (⟨2, ![K, N]⟩ : Shape).Idx → EReal)
    (r : Fin M) (j : Fin N) : matProd x w (ix2 r j) = ∑ k : Fin K, x (ix2 r k) * w (ix2 k j) := rfl

theorem addRow_ix2 {M N : ℕ} (a : (⟨2, ![M, N]⟩ : Shape).Idx → EReal) (b : Fin N → EReal) (r : Fin M) (j : Fin N) :
    addRow a b (ix2 r j) = a (ix2 r j) + b j := rfl

theorem reluAddRow_ix2 {M N : ℕ} (a : (⟨2, ![M, N]⟩ : Shape).Idx → EReal) (b : Fin N → EReal) (r : Fin M) (j : Fin N) :
    reluAddRow a b (ix2 r j) = max (a (ix2 r j) + b j) 0 := rfl

/-- The host's plain product of two matrices is `matProd`. -/
theorem dotGeneral_plain_eq {M K N : ℕ} (prec : Option ContractPrecision)
    (x : FVec Ideal ⟨2, ![M, K]⟩ .f32) (w : FVec Ideal ⟨2, ![K, N]⟩ .f32) :
    Host.dotGeneral (DotDims.plain M K N) prec x w = matProd x w := by
  funext i
  obtain ⟨r, j, rfl⟩ : ∃ (r : Fin M) (j : Fin N), i = ix2 r j := ⟨i 0, i 1, eq_ix2 i⟩
  exact StackMember.dotGeneral_plain_apply prec x w r j

/-- The matrix unit's product accumulated into the zero matrix is `matProd`, whatever the operands' formats. -/
theorem matmul_plain_zero_eq {M K N : ℕ} {φ₁ φ₂ : FTy} (prec : Option ContractPrecision)
    (x : FVec Ideal ⟨2, ![M, K]⟩ φ₁) (w : FVec Ideal ⟨2, ![K, N]⟩ φ₂) :
    matmul (DotDims.plain M K N) prec x w (constant (⟨2, ![M, N]⟩ : Shape) .f32 0x00000000#32) = matProd x w := by
  rw [matmul_zero_eq_dotGeneral]
  funext i
  obtain ⟨r, j, rfl⟩ : ∃ (r : Fin M) (j : Fin N), i = ix2 r j := ⟨i 0, i 1, eq_ix2 i⟩
  exact StackMember.dotGeneral_plain_apply prec x w r j

/-- The host's bias addition — a vector broadcast to one row, that row broadcast over the rows, added — is `addRow`. -/
theorem addf_bias_eq {M N : ℕ} (a : FVec Ideal ⟨2, ![M, N]⟩ .f32) (b : FVec Ideal ⟨1, ![N]⟩ .f32)
    (h₁ : (⟨1, ![N]⟩ : Shape).BroadcastsInDim ⟨2, ![1, N]⟩ ![1])
    (h₂ : (⟨2, ![1, N]⟩ : Shape).BroadcastsInDim ⟨2, ![M, N]⟩ ![0, 1]) :
    addf a (broadcastInDim (⟨2, ![M, N]⟩ : Shape) ![0, 1] h₂ (broadcastInDim (⟨2, ![1, N]⟩ : Shape) ![1] h₁ b))
      = addRow a (fun j => b (ix1 j)) := by
  funext i
  obtain ⟨r, j, rfl⟩ : ∃ (r : Fin M) (j : Fin N), i = ix2 r j := ⟨i 0, i 1, eq_ix2 i⟩
  rw [addf_apply, addRow_ix2]
  congr 1
  refine (broadcastInDim_apply ![0, 1] h₂ _ (ix2 r j) (ix2 (0 : Fin 1) j) fun a => ?_).trans
    (broadcastInDim_apply ![1] h₁ b (ix2 (0 : Fin 1) j) (ix1 j) fun a => ?_)
  · match a with
    | ⟨0, _⟩ => rfl
    | ⟨1, _⟩ =>
      show j.val = if N = 1 then 0 else j.val
      split_ifs with h1
      · have := j.isLt; omega
      · rfl
  · match a with
    | ⟨0, _⟩ =>
      show j.val = if N = 1 then 0 else j.val
      split_ifs with h1
      · have := j.isLt; omega
      · rfl

/-- The maximum with a splat of the zero word is the maximum with 0, entry by entry. -/
theorem maximumf_zero_eq {s : Shape} (v : FVec Ideal s .f32) (h : (⟨0, ![]⟩ : Shape).BroadcastsInDim s ![]) :
    maximumf v (broadcastInDim s ![] h (constant (F := Ideal) (⟨0, ![]⟩ : Shape) .f32 0x00000000#32)) = fun i => max (v i) 0 := by
  funext i
  rw [maximumf_apply, broadcastInDim_apply ![] h _ i ix0 (fun a => a.elim0), constant_apply, Ideal.ofBits_zero_f32]

/-- The host's first layer's dense tail: bias addition, then the maximum with zero. -/
theorem relu_bias_eq {M N : ℕ} (a : FVec Ideal ⟨2, ![M, N]⟩ .f32) (b : FVec Ideal ⟨1, ![N]⟩ .f32)
    (h₁ : (⟨1, ![N]⟩ : Shape).BroadcastsInDim ⟨2, ![1, N]⟩ ![1])
    (h₂ : (⟨2, ![1, N]⟩ : Shape).BroadcastsInDim ⟨2, ![M, N]⟩ ![0, 1])
    (h₀ : (⟨0, ![]⟩ : Shape).BroadcastsInDim ⟨2, ![M, N]⟩ ![]) :
    maximumf (addf a (broadcastInDim (⟨2, ![M, N]⟩ : Shape) ![0, 1] h₂ (broadcastInDim (⟨2, ![1, N]⟩ : Shape) ![1] h₁ b)))
        (broadcastInDim (⟨2, ![M, N]⟩ : Shape) ![] h₀ (constant (F := Ideal) (⟨0, ![]⟩ : Shape) .f32 0x00000000#32))
      = reluAddRow a (fun j => b (ix1 j)) := by
  rw [maximumf_zero_eq, addf_bias_eq]
  rfl

/-- A vector laid out as a matrix of one row, read in that row. -/
theorem row_of_vector {N : ℕ} (b : (⟨1, ![N]⟩ : Shape).Idx → EReal) (h : (⟨1, ![N]⟩ : Shape).ShapeCasts ⟨2, ![1, N]⟩) (j : Fin N) :
    shapeCast (⟨2, ![1, N]⟩ : Shape) b h (ix2 (0 : Fin 1) j) = b (ix1 j) := by
  refine shapeCast_apply b h (ix2 (0 : Fin 1) j) (ix1 j) ?_
  rw [Shape.rowMajor_val_one, Shape.rowMajor_val_two]
  show j.val = 0 * N + j.val
  omega

end Cert.Gcn

end
-- ==== Proof.RegionMatmul0.lean ====
/-
  The first dense product, block of rows by block of rows.

  The region visits ten grid points. At point t its first input block is rows 5000·t … 5000·t + 4999 of a
  50000 × 256 matrix x, its second input block is the whole 256 × 256 matrix w, and what it leaves in the
  output block is the product of the two blocks accumulated onto zero, each operand first narrowed to a
  shorter float format — over the extended reals a change of format is the identity. So entry (p, j) of
  the block left at point t is ∑ₖ x(5000·t + p, k) · w(k, j), which is entry (5000·t + p, j) of the
  product x · w of the whole matrices: the block written back at t is block t of x · w. Row r of the
  output lies in the block of point r / 5000, so the ten blocks cover the 50000 rows and the output array
  ends holding x · w, whatever the arrays held when the region was entered.
-/
import proofs.«166939_j661424964180_1_alg».proof.Proof.Gen.KernelIdeal.Frame
import proofs.«166939_j661424964180_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx Idealize.SL.Sem Idealize.ShloMosaic.TcCoe
open Cert.KernelIdeal Cert.KernelIdeal.Gen Cert.Gcn

namespace Cert.KernelIdeal.RegionValue

variable (V : (c : Dev nD) → (b : Ref sig .tc) → Buf (Elt Ideal) ((c : Thread nD τ).loc b))

namespace Matmul0

/-- The offsets of a whole-buffer load or store, however the two zeros are spelt. -/
theorem zeroOffsets0 : (![0, 0] : Fin 2 → Nat) = fun _ => 0 := funext fun a => by fin_cases a <;> rfl

/-- What the body computes from its two loaded blocks is their matrix product: narrowing the operands changes
    nothing over the extended reals, the contraction is the plain one (second axis of the left operand against
    the first of the right), and the accumulator starts at zero. -/
theorem blockProduct0 (x0 : Vec Ideal S5000x256 .f32) (x1 : Vec Ideal S256x256 .f32) :
    k0_pay1 (F := Ideal) x0 x1 = matProd (M := 5000) (K := 256) (N := 256) x0 x1 :=
  matmul_plain_zero_eq (M := 5000) (K := 256) (N := 256) none x0 x1

/-- Entry y of a product of blocks is entry i of a product of whole matrices when row y₀ of the left block is row
    i₀ of the left matrix and column y₁ of the right block is column i₁ of the right matrix. -/
theorem matProd_entry_of_rows {Mb M K Nb N : ℕ}
    (xb : (⟨2, ![Mb, K]⟩ : Shape).Idx → EReal) (wb : (⟨2, ![K, Nb]⟩ : Shape).Idx → EReal)
    (x : (⟨2, ![M, K]⟩ : Shape).Idx → EReal) (w : (⟨2, ![K, N]⟩ : Shape).Idx → EReal)
    (y : (⟨2, ![Mb, Nb]⟩ : Shape).Idx) (i : (⟨2, ![M, N]⟩ : Shape).Idx)
    (hx : ∀ k : Fin K, xb (ix2 (y 0) k) = x (ix2 (i 0) k))
    (hw : ∀ k : Fin K, wb (ix2 k (y 1)) = w (ix2 k (i 1))) :
    matProd xb wb y = matProd x w i :=
  Finset.sum_congr rfl fun k _ => by rw [hx k, hw k]

/-- The printed index maps over the ten grid points: the row-block index of the first input and of the output is
    the point's number, their column-block index is zero, and the second input's block index is zero on both axes. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the product of the two whole matrices as the region finds them. -/
theorem flushed0_eq (c : Dev nD) (t : Fin cfg0.N) :
    (dat0 (F := Ideal) V c).flushed 2 t
      = ((cfg0.win 2).blk t).view.read (Elt Ideal)
          (matProd (M := 50000) (K := 256) (N := 256) (V c main_arg0) (V c main_arg2)) := by
  show (cfg0.win 2).cut (grid0.coords t) ((dat0 (F := Ideal) V c).after 2 t) = _
  rw [after0_2]
  unfold out0_2
  rw [View.canon_unit_zero zeroOffsets0]
  simp only [View.ld_unit_zero (S := S5000x256) zeroOffsets0, View.ld_unit_zero (S := S256x256) zeroOffsets0]
  rw [blockProduct0]
  obtain ⟨e00, e01, e10, e11, e20, e21⟩ := blockIndex0 t
  funext y
  refine matProd_entry_of_rows _ _ _ _ y _ (fun k => ?_) (fun k => ?_)
  · -- row y₀ of the first input block is row 5000·t + y₀ of the first matrix
    show V c main_arg0 (((cfg0.win 0).blk t).view.emb (ix2 (y 0) k)) = V c main_arg0 (ix2 ((((cfg0.win 2).blk t).view.emb y) 0) k)
    congr 1
    funext a; apply Fin.ext
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 256 + 1 * k.val = k.val; omega
  · -- the second input block is the whole second matrix
    show V c main_arg2 (((cfg0.win 1).blk t).view.emb (ix2 k (y 1))) = V c main_arg2 (ix2 k ((((cfg0.win 2).blk t).view.emb y) 1))
    congr 1
    funext a; apply Fin.ext
    match a with
    | ⟨0, _⟩ => show win0_1.index t (0 : Fin 2) * 256 + 1 * k.val = k.val; omega
    | ⟨1, _⟩ => show win0_1.index t (1 : Fin 2) * 256 + 1 * (y 1).val = win0_2.index t (1 : Fin 2) * 256 + 1 * (y 1).val; omega

/-- An index of the output array is in point t's block iff each coordinate is in the block's range on its axis. -/
theorem mem_blk0 (t : Fin cfg0.N) (i : S50000x256.Idx) :
    i ∈ ((cfg0.win 2).blk t).view.set
      ↔ ∀ a : Fin 2, win0_2.index t a * S5000x256.size a ≤ (i a).val
          ∧ (i a).val < win0_2.index t a * S5000x256.size a + S5000x256.size a := by
  show i ∈ ((View.whole main_v30).slice (win0_2.rect t)).set ↔ _
  rw [View.set_slice_whole, Rect.mem_set_unit]
  exact Iff.rfl

/-- Every index of the output array is in the block of some point that writes back: row r is in block r / 5000. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : grid0.N = 10 := N_0
  let t : Fin cfg0.N := ⟨(i 0).val / 5000, by show (i 0).val / 5000 < grid0.N; omega⟩
  obtain ⟨-, -, -, -, e20, e21⟩ := blockIndex0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

end Matmul0

open Matmul0 in
/-- THE OUTPUT ARRAY after the region: the product of the two matrices the region found. -/
theorem final0 (c : Dev nD) :
    (dat0 (F := Ideal) V c).arrAt 2 cfg0.N
      = matProd (M := 50000) (K := 256) (N := 256) (V c main_arg0) (V c main_arg2) :=
  (dat0 (F := Ideal) V c).arrAt_eq_of_cover 2
    (matProd (M := 50000) (K := 256) (N := 256) (V c main_arg0) (V c main_arg2))
    (fun t _ => flushed0_eq V c t) cover0

end Cert.KernelIdeal.RegionValue

end
-- ==== Proof.RegionBias1.lean ====
/-
  The second of the kernel's four passes adds a bias row to a 50000 × 256 matrix and takes the maximum with zero. The
  pass walks ten points; at point t it takes rows 5000·t … 5000·t + 4999 of the matrix (all 256 columns) together
  with the whole one-row bias matrix, and writes back, into the same rows of the result, the block with the bias row
  added to each of its rows and every entry then replaced by its maximum with zero.

  This module shows that, whatever the two arrays hold when the pass begins, the result array ends holding
  `reluAddRow a b`: entry (r, j) is max (a(r, j) + b(0, j)) 0, where a is the matrix and b the one-row bias matrix.

    * `biasReluPayload1` : what the body computes from a block x0 and the bias row x1, read at entry (p, q), is
                            max (x0(p, q) + x1(0, q)) 0: the casts of a shape to itself change nothing, the one-row
                            matrix broadcast over the rows reads its row 0 at every row, the maximum is taken entry by
                            entry against a matrix that is the zero word everywhere, and the zero word is the real 0;
    * `blockIndex1`      : the block index maps over the ten points: the matrix's and the result's block index is
                            (t, 0), the bias row's is (0, 0);
    * `blockPoint1`      : so an entry of the body's result is the entry of `reluAddRow` at the array index it is
                            written to, provided the block entry is the matrix's entry there and the bias block is the
                            bias row;
    * `flushed1_eq`      : what point t writes back is block t of `reluAddRow a b` (entry (p, q) of block t sits at
                            row 5000·t + p, column q of the array);
    * `mem_blk1`, `cover1` : row r lies in the block of point r / 5000, so the ten blocks cover the array;
    * `final1`           : hence the whole result array is `reluAddRow a b`.
-/
import proofs.«166939_j661424964180_1_alg».proof.Proof.Gen.KernelIdeal.Frame
import proofs.«166939_j661424964180_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx Idealize.SL.Sem Idealize.ShloMosaic.TcCoe
open Cert.KernelIdeal Cert.KernelIdeal.Gen Cert.Gcn

namespace Cert.KernelIdeal.RegionValue

theorem zeroOffsets1 : (![0, 0] : Fin 2 → Nat) = fun _ => 0 := funext fun a => by fin_cases a <;> rfl

theorem biasReluPayload1 (x0 : Vec Ideal S5000x256 .f32) (x1 : Vec Ideal S1x256 .f32) (p : Fin 5000) (q : Fin 256) :
    k1_pay1 x0 x1 (ix2 p q) = max (x0 (ix2 p q) + x1 (ix2 (0 : Fin 1) q)) 0 := by
  unfold k1_pay1
  simp only [shapeCast_self]
  rw [maximumf_apply, addf_apply, broadcast_apply]
  have hrow : broadcastTo S5000x256 x1 broadcasts_S1x256_S5000x256 (ix2 p q) = x1 (ix2 (0 : Fin 1) q) :=
    broadcastTo_apply x1 _ (ix2 p q) (ix2 (0 : Fin 1) q) (fun a => by match a with | ⟨0, _⟩ => rfl | ⟨1, _⟩ => rfl)
  rw [hrow]
  exact congrArg (max (x0 (ix2 p q) + x1 (ix2 (0 : Fin 1) q))) Ideal.ofBits_zero_f32

theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem blockPoint1 (A : (⟨2, ![50000, 256]⟩ : Shape).Idx → EReal) (B : (⟨2, ![1, 256]⟩ : Shape).Idx → EReal)
    (x0 : Vec Ideal S5000x256 .f32) (x1 : Vec Ideal S1x256 .f32) (y : S5000x256.Idx) (i : (⟨2, ![50000, 256]⟩ : Shape).Idx)
    (h0 : x0 y = A i) (h1 : ∀ q : Fin 256, x1 (ix2 (0 : Fin 1) q) = B (ix2 (0 : Fin 1) q)) (hi : (i 1).val = (y 1).val) :
    k1_pay1 x0 x1 y = reluAddRow A (fun n => B (ix2 (0 : Fin 1) n)) i := by
  obtain ⟨p, q, rfl⟩ : ∃ (p : Fin 5000) (q : Fin 256), y = ix2 p q := ⟨y 0, y 1, eq_ix2 y⟩
  rw [biasReluPayload1, h0, h1]
  have e : i 1 = q := Fin.ext hi
  show max (A i + B (ix2 (0 : Fin 1) q)) 0 = max (A i + B (ix2 (0 : Fin 1) (i 1))) 0
  rw [e]

variable (V : (c : Dev nD) → (b : Ref sig .tc) → Buf (Elt Ideal) ((c : Thread nD τ).loc b))

theorem flushed1_eq (c : Dev nD) (t : Fin cfg1.N) :
    (dat1 (F := Ideal) V c).flushed 2 t = ((cfg1.win 2).blk t).view.read (Elt Ideal)
      (reluAddRow (M := 50000) (N := 256) (V c main_v43) (fun n => (V c main_v44 : (⟨2, ![1, 256]⟩ : Shape).Idx → EReal) (ix2 (0 : Fin 1) n))) := by
  show (cfg1.win 2).cut (grid1.coords t) ((dat1 V c).after 2 t) = _
  rw [after1_2]
  unfold out1_2
  rw [View.canon_unit_zero zeroOffsets1]
  simp only [View.ld_unit_zero (S := S5000x256) zeroOffsets1, View.ld_unit_zero (S := S1x256) zeroOffsets1]
  obtain ⟨e0, e1, e2, e3, e4, e5⟩ := blockIndex1 t
  funext j
  refine blockPoint1 (V c main_v43) (V c main_v44) (iblk1 V c 0 t) (iblk1 V c 1 t) j (((cfg1.win 2).blk t).view.emb j) ?_ ?_ ?_
  · show V c main_v43 (((cfg1.win 0).blk t).view.emb j) = V c main_v43 (((cfg1.win 2).blk t).view.emb j)
    refine congrArg (V c main_v43) (funext fun a => Fin.ext ?_)
    match a with
    | ⟨0, _⟩ => show win1_0.index t (0 : Fin 2) * 5000 + 1 * (j 0).val = win1_2.index t (0 : Fin 2) * 5000 + 1 * (j 0).val; rw [e0, e4]
    | ⟨1, _⟩ => show win1_0.index t (1 : Fin 2) * 256 + 1 * (j 1).val = win1_2.index t (1 : Fin 2) * 256 + 1 * (j 1).val; rw [e1, e5]
  · intro q
    show V c main_v44 (((cfg1.win 1).blk t).view.emb (ix2 (0 : Fin 1) q)) = V c main_v44 (ix2 (0 : Fin 1) q)
    refine congrArg (V c main_v44) (funext fun a => Fin.ext ?_)
    match a with
    | ⟨0, _⟩ => show win1_1.index t (0 : Fin 2) * 1 + 1 * 0 = 0; rw [e2]
    | ⟨1, _⟩ => show win1_1.index t (1 : Fin 2) * 256 + 1 * q.val = q.val; rw [e3]; omega
  · show win1_2.index t (1 : Fin 2) * 256 + 1 * (j 1).val = (j 1).val
    rw [e5]; omega

theorem mem_blk1 (t : Fin cfg1.N) (i : (⟨2, ![50000, 256]⟩ : Shape).Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v45).slice (win1_2.rect t)).set ↔ _
  rw [View.set_slice_whole, Rect.mem_set_unit]
  exact Iff.rfl

theorem cover1 (i : (⟨2, ![50000, 256]⟩ : Shape).Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 10 := N_1
  let t : Fin cfg1.N := ⟨(i 0).val / 5000, by rw [hN]; omega⟩
  obtain ⟨e0, e1, e2, e3, e4, e5⟩ := blockIndex1 t
  have e4' : win1_2.index t (0 : Fin 2) = (i 0).val / 5000 := e4
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

theorem final1 (c : Dev nD) :
    (dat1 (F := Ideal) V c).arrAt 2 cfg1.N
      = reluAddRow (M := 50000) (N := 256) (V c main_v43) (fun n => (V c main_v44 : (⟨2, ![1, 256]⟩ : Shape).Idx → EReal) (ix2 (0 : Fin 1) n)) :=
  (dat1 V c).arrAt_eq_of_cover 2 _ (fun t _ => flushed1_eq V c t) cover1

end Cert.KernelIdeal.RegionValue
end
-- ==== Proof.RegionMatmul2.lean ====
/-
  The second dense product, block of rows by block of rows.

  The region visits ten grid points. At point t its first input block is rows 5000·t … 5000·t + 4999 of a
  50000 × 256 matrix h (the first layer's activations), its second input block is the whole 256 × 128
  matrix w, and what it leaves in the 5000 × 128 output block is the product of the two blocks accumulated
  onto zero; the first block is first recast to its own shape, which moves nothing, and both operands are
  narrowed to a shorter float format, which over the extended reals is the identity. So entry (p, j) of the
  block left at point t is ∑ₖ h(5000·t + p, k) · w(k, j), entry (5000·t + p, j) of the product h · w of the
  whole matrices: the block written back at t is block t of h · w. Row r of the output lies in the block of
  point r / 5000, so the ten blocks cover the 50000 rows and the output array ends holding h · w, whatever
  the arrays held when the region was entered.
-/
import proofs.«166939_j661424964180_1_alg».proof.Proof.Gen.KernelIdeal.Frame
import proofs.«166939_j661424964180_1_alg».proof.Proof.Spec
import proofs.«166939_j661424964180_1_alg».proof.Proof.RegionMatmul0
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx Idealize.SL.Sem Idealize.ShloMosaic.TcCoe
open Cert.KernelIdeal Cert.KernelIdeal.Gen Cert.Gcn

namespace Cert.KernelIdeal.RegionValue

variable (V : (c : Dev nD) → (b : Ref sig .tc) → Buf (Elt Ideal) ((c : Thread nD τ).loc b))

namespace Matmul2

open Matmul0 (zeroOffsets0 matProd_entry_of_rows)

/-- What the body computes from its two loaded blocks is their matrix product: the recast of the left block to
    its own shape moves nothing, narrowing the operands changes nothing over the extended reals, the contraction
    is the plain one (second axis of the left operand against the first of the right), and the accumulator
    starts at zero. -/
theorem blockProduct2 (x0 : Vec Ideal S5000x256 .f32) (x1 : Vec Ideal S256x128 .f32) :
    k2_pay1 (F := Ideal) x0 x1 = matProd (M := 5000) (K := 256) (N := 128) x0 x1 := by
  unfold k2_pay1
  simp only [shapeCast_self]
  exact matmul_plain_zero_eq (M := 5000) (K := 256) (N := 128) none x0 x1

/-- The printed index maps over the ten grid points: the row-block index of the first input and of the output is
    the point's number, their column-block index is zero, and the second input's block index is zero on both axes. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT t WRITES BACK is block t of the product of the two whole matrices as the region finds them. -/
theorem flushed2_eq (c : Dev nD) (t : Fin cfg2.N) :
    (dat2 (F := Ideal) V c).flushed 2 t
      = ((cfg2.win 2).blk t).view.read (Elt Ideal)
          (matProd (M := 50000) (K := 256) (N := 128) (V c main_v45) (V c main_arg4)) := by
  show (cfg2.win 2).cut (grid2.coords t) ((dat2 (F := Ideal) V c).after 2 t) = _
  rw [after2_2]
  unfold out2_2
  rw [View.canon_unit_zero zeroOffsets0]
  simp only [View.ld_unit_zero (S := S5000x256) zeroOffsets0, View.ld_unit_zero (S := S256x128) zeroOffsets0]
  rw [blockProduct2]
  obtain ⟨e00, e01, e10, e11, e20, e21⟩ := blockIndex2 t
  funext y
  refine matProd_entry_of_rows _ _ _ _ y _ (fun k => ?_) (fun k => ?_)
  · -- row y₀ of the first input block is row 5000·t + y₀ of the first matrix
    show V c main_v45 (((cfg2.win 0).blk t).view.emb (ix2 (y 0) k)) = V c main_v45 (ix2 ((((cfg2.win 2).blk t).view.emb y) 0) k)
    congr 1
    funext a; apply Fin.ext
    match a with
    | ⟨0, _⟩ => show win2_0.index t (0 : Fin 2) * 5000 + 1 * (y 0).val = win2_2.index t (0 : Fin 2) * 5000 + 1 * (y 0).val; omega
    | ⟨1, _⟩ => show win2_0.index t (1 : Fin 2) * 256 + 1 * k.val = k.val; omega
  · -- the second input block is the whole second matrix
    show V c main_arg4 (((cfg2.win 1).blk t).view.emb (ix2 k (y 1))) = V c main_arg4 (ix2 k ((((cfg2.win 2).blk t).view.emb y) 1))
    congr 1
    funext a; apply Fin.ext
    match a with
    | ⟨0, _⟩ => show win2_1.index t (0 : Fin 2) * 256 + 1 * k.val = k.val; omega
    | ⟨1, _⟩ => show win2_1.index t (1 : Fin 2) * 128 + 1 * (y 1).val = win2_2.index t (1 : Fin 2) * 128 + 1 * (y 1).val; omega

/-- An index of the output array is in point t's block iff each coordinate is in the block's range on its axis. -/
theorem mem_blk2 (t : Fin cfg2.N) (i : S50000x128.Idx) :
    i ∈ ((cfg2.win 2).blk t).view.set
      ↔ ∀ a : Fin 2, win2_2.index t a * S5000x128.size a ≤ (i a).val
          ∧ (i a).val < win2_2.index t a * S5000x128.size a + S5000x128.size a := by
  show i ∈ ((View.whole main_v46).slice (win2_2.rect t)).set ↔ _
  rw [View.set_slice_whole, Rect.mem_set_unit]
  exact Iff.rfl

/-- Every index of the output array is in the block of some point that writes back: row r is in block r / 5000. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  let t : Fin cfg2.N := ⟨(i 0).val / 5000, by show (i 0).val / 5000 < grid2.N; omega⟩
  obtain ⟨-, -, -, -, e20, e21⟩ := blockIndex2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

end Matmul2

open Matmul2 in
/-- THE OUTPUT ARRAY after the region: the product of the two matrices the region found. -/
theorem final2 (c : Dev nD) :
    (dat2 (F := Ideal) V c).arrAt 2 cfg2.N
      = matProd (M := 50000) (K := 256) (N := 128) (V c main_v45) (V c main_arg4) :=
  (dat2 (F := Ideal) V c).arrAt_eq_of_cover 2
    (matProd (M := 50000) (K := 256) (N := 128) (V c main_v45) (V c main_arg4))
    (fun t _ => flushed2_eq V c t) cover2

end Cert.KernelIdeal.RegionValue

end
-- ==== Proof.RegionBias3.lean ====
/-
  The last of the kernel's four passes adds a bias row to a 50000 × 128 matrix. The pass walks ten points; at point t
  it takes rows 5000·t … 5000·t + 4999 of the matrix (all 128 columns) together with the whole one-row bias matrix,
  and writes back, into the same rows of the result, the block with the bias row added to each of its rows.

  This module shows that, whatever the two arrays hold when the pass begins, the result array ends holding
  `addRow a b`: entry (r, j) is a(r, j) + b(0, j), where a is the matrix and b the one-row bias matrix.

    * `biasPayload3`  : what the body computes from a block x0 and the bias row x1, read at entry (p, q), is
                         x0(p, q) + x1(0, q): the casts of a shape to itself change nothing and the one-row matrix
                         broadcast over the rows reads its row 0 at every row;
    * `blockIndex3`   : the block index maps over the ten points: the matrix's and the result's block index is
                         (t, 0), the bias row's is (0, 0);
    * `blockPoint3`   : so an entry of the body's result is the entry of `addRow` at the array index it is written to,
                         provided the block entry is the matrix's entry there and the bias block is the bias row;
    * `flushed3_eq`   : what point t writes back is block t of `addRow a b` (entry (p, q) of block t sits at
                         row 5000·t + p, column q of the array);
    * `mem_blk3`, `cover3` : row r lies in the block of point r / 5000, so the ten blocks cover the array;
    * `final3`        : hence the whole result array is `addRow a b`.
-/
import proofs.«166939_j661424964180_1_alg».proof.Proof.Gen.KernelIdeal.Frame
import proofs.«166939_j661424964180_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx Idealize.SL.Sem Idealize.ShloMosaic.TcCoe
open Cert.KernelIdeal Cert.KernelIdeal.Gen Cert.Gcn

namespace Cert.KernelIdeal.RegionValue

theorem zeroOffsets3 : (![0, 0] : Fin 2 → Nat) = fun _ => 0 := funext fun a => by fin_cases a <;> rfl

theorem biasPayload3 (x0 : Vec Ideal S5000x128 .f32) (x1 : Vec Ideal S1x128 .f32) (p : Fin 5000) (q : Fin 128) :
    k3_pay1 x0 x1 (ix2 p q) = x0 (ix2 p q) + x1 (ix2 (0 : Fin 1) q) := by
  unfold k3_pay1
  simp only [shapeCast_self]
  rw [addf_apply]
  exact congrArg (x0 (ix2 p q) + ·) (broadcastTo_apply x1 _ (ix2 p q) (ix2 (0 : Fin 1) q)
    (fun a => by match a with | ⟨0, _⟩ => rfl | ⟨1, _⟩ => rfl))

theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem blockPoint3 (A : (⟨2, ![50000, 128]⟩ : Shape).Idx → EReal) (B : (⟨2, ![1, 128]⟩ : Shape).Idx → EReal)
    (x0 : Vec Ideal S5000x128 .f32) (x1 : Vec Ideal S1x128 .f32) (y : S5000x128.Idx) (i : (⟨2, ![50000, 128]⟩ : Shape).Idx)
    (h0 : x0 y = A i) (h1 : ∀ q : Fin 128, x1 (ix2 (0 : Fin 1) q) = B (ix2 (0 : Fin 1) q)) (hi : (i 1).val = (y 1).val) :
    k3_pay1 x0 x1 y = addRow A (fun n => B (ix2 (0 : Fin 1) n)) i := by
  obtain ⟨p, q, rfl⟩ : ∃ (p : Fin 5000) (q : Fin 128), y = ix2 p q := ⟨y 0, y 1, eq_ix2 y⟩
  rw [biasPayload3, h0, h1]
  have e : i 1 = q := Fin.ext hi
  show A i + B (ix2 (0 : Fin 1) q) = A i + B (ix2 (0 : Fin 1) (i 1))
  rw [e]

variable (V : (c : Dev nD) → (b : Ref sig .tc) → Buf (Elt Ideal) ((c : Thread nD τ).loc b))

theorem flushed3_eq (c : Dev nD) (t : Fin cfg3.N) :
    (dat3 (F := Ideal) V c).flushed 2 t = ((cfg3.win 2).blk t).view.read (Elt Ideal)
      (addRow (M := 50000) (N := 128) (V c main_v59) (fun n => (V c main_v60 : (⟨2, ![1, 128]⟩ : Shape).Idx → EReal) (ix2 (0 : Fin 1) n))) := by
  show (cfg3.win 2).cut (grid3.coords t) ((dat3 V c).after 2 t) = _
  rw [after3_2]
  unfold out3_2
  rw [View.canon_unit_zero zeroOffsets3]
  simp only [View.ld_unit_zero (S := S5000x128) zeroOffsets3, View.ld_unit_zero (S := S1x128) zeroOffsets3]
  obtain ⟨e0, e1, e2, e3, e4, e5⟩ := blockIndex3 t
  funext j
  refine blockPoint3 (V c main_v59) (V c main_v60) (iblk3 V c 0 t) (iblk3 V c 1 t) j (((cfg3.win 2).blk t).view.emb j) ?_ ?_ ?_
  · show V c main_v59 (((cfg3.win 0).blk t).view.emb j) = V c main_v59 (((cfg3.win 2).blk t).view.emb j)
    refine congrArg (V c main_v59) (funext fun a => Fin.ext ?_)
    match a with
    | ⟨0, _⟩ => show win3_0.index t (0 : Fin 2) * 5000 + 1 * (j 0).val = win3_2.index t (0 : Fin 2) * 5000 + 1 * (j 0).val; rw [e0, e4]
    | ⟨1, _⟩ => show win3_0.index t (1 : Fin 2) * 128 + 1 * (j 1).val = win3_2.index t (1 : Fin 2) * 128 + 1 * (j 1).val; rw [e1, e5]
  · intro q
    show V c main_v60 (((cfg3.win 1).blk t).view.emb (ix2 (0 : Fin 1) q)) = V c main_v60 (ix2 (0 : Fin 1) q)
    refine congrArg (V c main_v60) (funext fun a => Fin.ext ?_)
    match a with
    | ⟨0, _⟩ => show win3_1.index t (0 : Fin 2) * 1 + 1 * 0 = 0; rw [e2]
    | ⟨1, _⟩ => show win3_1.index t (1 : Fin 2) * 128 + 1 * q.val = q.val; rw [e3]; omega
  · show win3_2.index t (1 : Fin 2) * 128 + 1 * (j 1).val = (j 1).val
    rw [e5]; omega

theorem mem_blk3 (t : Fin cfg3.N) (i : (⟨2, ![50000, 128]⟩ : Shape).Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

theorem cover3 (i : (⟨2, ![50000, 128]⟩ : Shape).Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨e0, e1, e2, e3, e4, e5⟩ := blockIndex3 t
  have e4' : win3_2.index t (0 : Fin 2) = (i 0).val / 5000 := e4
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

theorem final3 (c : Dev nD) :
    (dat3 (F := Ideal) V c).arrAt 2 cfg3.N
      = addRow (M := 50000) (N := 128) (V c main_v59) (fun n => (V c main_v60 : (⟨2, ![1, 128]⟩ : Shape).Idx → EReal) (ix2 (0 : Fin 1) n)) :=
  (dat3 V c).arrAt_eq_of_cover 2 _ (fun t _ => flushed3_eq V c t) cover3

end Cert.KernelIdeal.RegionValue
end
-- ==== Proof.Shared.lean ====
/-
  The sparse half of a graph-convolution layer, which both programs compute by the same host operations: from the
  edge list e (two rows of E node numbers) the source and target node of every edge with one self-loop per node
  appended (`srcIdx`, `dstIdx`), the in-degree of every node (`degree`: ones scattered and added at the targets), its
  inverse square root where the degree is positive and zero elsewhere (`dinv`), the weight of an edge
  dinv(src) * dinv(dst) (`edgeNorm`), and the aggregation of a node matrix h along the edges: row d of the result is
  the sum over the edges into d of weight * row src of h (`aggregate256`, `aggregate128`: gather the source rows,
  scale, scatter and add at the targets). A negative node number is taken from the end, as indexing does (`colIdx`).
  Nothing here is ever opened by the certificate: the two programs apply these same functions, and only what they are
  applied to differs.
-/
import proofs.«166939_j661424964180_1_alg».proof.KernelIdeal

noncomputable section

namespace Cert.KernelIdeal.Edge

open Cert.KernelIdeal Idealize.ShloMosaic

variable {F : FTy → Type} [FloatOps F] [Cert.KernelIdeal.Facts]
open Cert.KernelIdeal.Facts₀ Cert.KernelIdeal.Facts

/-- The source node of every edge, then every node once (the self-loops). -/
def srcIdx (e : (⟨S2x800000, .i32⟩ : BufTy).Contents (Elt F)) : (⟨S850000, .i32⟩ : BufTy).Contents (Elt F) :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

/-- The target node of every edge, then every node once. -/
def dstIdx (e : (⟨S2x800000, .i32⟩ : BufTy).Contents (Elt F)) : (⟨S850000, .i32⟩ : BufTy).Contents (Elt F) :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- Node numbers as a column of gather indices, a negative number counted from the end. -/
def colIdx (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The number of edges into every node, self-loop included. -/
def degree (d : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32))
    (broadcastInDim S850000x1 ![0] bcast_S850000_S850000x1_0 d) (broadcastInDim S850000 ![] bcast_S_S850000 (constant S_ .f32 0x3F800000#32))

/-- degree^(-1/2) where the degree is positive, zero elsewhere. -/
def dinv (d : (⟨S850000, .i32⟩ : BufTy).Contents (Elt F)) : (⟨S50000, .f32⟩ : BufTy).Contents (Elt F) :=
  select (cmpf (F := F) .ogt (degree d) (broadcastInDim S50000 ![] bcast_S_S50000 (constant S_ .f32 0x00000000#32)))
    (Host.rsqrt (degree d)) (broadcastInDim S50000 ![] bcast_S_S50000 (id (constant S_ .f32 0x00000000#32)))

/-- The weight of every edge: dinv at its source times dinv at its target. -/
def edgeNorm (s d : (⟨S850000, .i32⟩ : BufTy).Contents (Elt F)) : (⟨S850000, .f32⟩ : BufTy).Contents (Elt F) :=
  mulf (Host.gather gather_S50000_S850000x1_S850000_n_0_n_n_0_1_1 (dinv d) (colIdx s))
    (Host.gather gather_S50000_S850000x1_S850000_n_0_n_n_0_1_1 (dinv d) (colIdx d))

/-- Rows of a 256-column node matrix gathered at the sources, scaled by the edge weights, added up at the targets. -/
def aggregate256 (s d : (⟨S850000, .i32⟩ : BufTy).Contents (Elt F)) (n : (⟨S850000, .f32⟩ : BufTy).Contents (Elt F))
    (h : (⟨S50000x256, .f32⟩ : BufTy).Contents (Elt F)) : (⟨S50000x256, .f32⟩ : BufTy).Contents (Elt F) :=
  Host.scatterAdd scatter_S50000x256_S850000x1_S850000x256_1_0_0_1 (broadcastInDim S50000x256 ![] bcast_S_S50000x256 (constant S_ .f32 0x00000000#32))
    (broadcastInDim S850000x1 ![0] bcast_S850000_S850000x1_0 d)
    (mulf (Host.gather gather_S50000x256_S850000x1_S850000x256_1_0_n_n_0_1_1256 h (colIdx s))
      (broadcastInDim S850000x256 ![0, 1] bcast_S850000x1_S850000x256_0_1 (broadcastInDim S850000x1 ![0] bcast_S850000_S850000x1_0 n)))

/-- The same for a 128-column node matrix. -/
def aggregate128 (s d : (⟨S850000, .i32⟩ : BufTy).Contents (Elt F)) (n : (⟨S850000, .f32⟩ : BufTy).Contents (Elt F))
    (h : (⟨S50000x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32))
    (broadcastInDim S850000x1 ![0] bcast_S850000_S850000x1_0 d)
    (mulf (Host.gather gather_S50000x128_S850000x1_S850000x128_1_0_n_n_0_1_1128 h (colIdx s))
      (broadcastInDim S850000x128 ![0, 1] bcast_S850000x1_S850000x128_0_1 (broadcastInDim S850000x1 ![0] bcast_S850000_S850000x1_0 n)))

end Cert.KernelIdeal.Edge

end
-- ==== Proof.HostReads.lean ====
/-
  What the host operations of the kernel's @main leave in the buffers the proof reads, for ANY contents X they start
  from. The operations before the first pallas_call compute, from the edge list alone, the source and target node of
  every edge (self-loops appended) and the weight of every edge; the operations between the first and the second
  pallas_call aggregate the first product along the edges and lay the first bias out as one row; the operations before
  the last pallas_call do the same for the second layer. Each stretch leaves every other buffer the proof reads as it
  found it.
-/
import proofs.«166939_j661424964180_1_alg».proof.Proof.Gen.KernelIdeal.Launch
import proofs.«166939_j661424964180_1_alg».proof.Proof.Shared
import Idealize.ShloMosaic.Lib.StableHlo.Run

noncomputable section

namespace Cert.KernelIdeal.HostReads

open Cert.KernelIdeal Cert.KernelIdeal.Gen Cert.KernelIdeal.Edge
open Idealize.ShloMosaic Idealize.ShloMosaic.TcCoe Idealize.SL.Sem Idealize.ShloMosaic.StableHlo

variable {F : FTy → Type} [FloatOps F]
variable (X : Valuation τ sig (Elt F))

/-! ## The operations before the first pallas_call -/

/-- The three stretches before the first pallas_call, as one fold. -/
abbrev prefixOf : Valuation τ sig (Elt F) := after hostOps0_2 (after hostOps0_1 (after hostOps0 X))

theorem prefix_src : prefixOf X (Proc.devRef .tc main_v3) = srcIdx (X (Proc.devRef .tc main_arg1)) := by
  after_results_simp <;> rfl

theorem prefix_dst : prefixOf X (Proc.devRef .tc main_v6) = dstIdx (X (Proc.devRef .tc main_arg1)) := by
  after_results_simp <;> rfl

theorem prefix_norm : prefixOf X (Proc.devRef .tc main_v29)
    = edgeNorm (srcIdx (X (Proc.devRef .tc main_arg1))) (dstIdx (X (Proc.devRef .tc main_arg1))) := by
  after_results_simp <;> rfl

theorem prefix_arg0 : prefixOf X (Proc.devRef .tc main_arg0) = X (Proc.devRef .tc main_arg0) := by
  after_results_simp <;> rfl
theorem prefix_arg2 : prefixOf X (Proc.devRef .tc main_arg2) = X (Proc.devRef .tc main_arg2) := by
  after_results_simp <;> rfl
theorem prefix_arg3 : prefixOf X (Proc.devRef .tc main_arg3) = X (Proc.devRef .tc main_arg3) := by
  after_results_simp <;> rfl
theorem prefix_arg4 : prefixOf X (Proc.devRef .tc main_arg4) = X (Proc.devRef .tc main_arg4) := by
  after_results_simp <;> rfl
theorem prefix_arg5 : prefixOf X (Proc.devRef .tc main_arg5) = X (Proc.devRef .tc main_arg5) := by
  after_results_simp <;> rfl

/-! ## The operations between the first and the second pallas_call -/

/-- The first product aggregated along the edges. -/
theorem mid_agg : after hostOps1 X (Proc.devRef .tc main_v43)
    = aggregate256 (X (Proc.devRef .tc main_v3)) (X (Proc.devRef .tc main_v6)) (X (Proc.devRef .tc main_v29)) (X (Proc.devRef .tc main_v30)) := by
  after_results_simp <;> rfl

/-- The first bias as a matrix of one row. -/
theorem mid_bias : after hostOps1 X (Proc.devRef .tc main_v44)
    = shapeCast S1x256 (X (Proc.devRef .tc main_arg3)) Cert.KernelIdeal.Facts₀.shapeCasts_S256_S1x256 := by
  after_results_simp <;> rfl

theorem mid_src : after hostOps1 X (Proc.devRef .tc main_v3) = X (Proc.devRef .tc main_v3) := by
  after_results_simp <;> rfl
theorem mid_dst : after hostOps1 X (Proc.devRef .tc main_v6) = X (Proc.devRef .tc main_v6) := by
  after_results_simp <;> rfl
theorem mid_norm : after hostOps1 X (Proc.devRef .tc main_v29) = X (Proc.devRef .tc main_v29) := by
  after_results_simp <;> rfl
theorem mid_arg4 : after hostOps1 X (Proc.devRef .tc main_arg4) = X (Proc.devRef .tc main_arg4) := by
  after_results_simp <;> rfl
theorem mid_arg5 : after hostOps1 X (Proc.devRef .tc main_arg5) = X (Proc.devRef .tc main_arg5) := by
  after_results_simp <;> rfl

/-! ## The operations before the last pallas_call -/

/-- The second product aggregated along the edges. -/
theorem last_agg : after hostOps3 X (Proc.devRef .tc main_v59)
    = aggregate128 (X (Proc.devRef .tc main_v3)) (X (Proc.devRef .tc main_v6)) (X (Proc.devRef .tc main_v29)) (X (Proc.devRef .tc main_v46)) := by
  after_results_simp <;> rfl

/-- The second bias as a matrix of one row. -/
theorem last_bias : after hostOps3 X (Proc.devRef .tc main_v60)
    = shapeCast S1x128 (X (Proc.devRef .tc main_arg5)) Cert.KernelIdeal.Facts₀.shapeCasts_S128_S1x128 := by
  after_results_simp <;> rfl

end Cert.KernelIdeal.HostReads

end
-- ==== Proof.Layers.lean ====
/-
  The two-layer graph convolution both programs compute, as one function of the six arguments over the extended
  reals: with s, d the source and target node of every edge (self-loops appended) and n the edge weights,
    layer1 = max (aggregate (x · W1) + b1) 0,    result = aggregate (layer1 · W2) + b2,
  the aggregation the shared host functions of Shared.lean, the dense parts the index-by-index functions of Spec.lean.
-/
import proofs.«166939_j661424964180_1_alg».proof.Proof.Shared
import proofs.«166939_j661424964180_1_alg».proof.Proof.Spec

noncomputable section

namespace Cert.KernelIdeal.Edge

open Cert.KernelIdeal Cert.Gcn Idealize.ShloMosaic Idealize.ShloMosaic.ValueIdx

variable [Cert.KernelIdeal.Facts]

/-- The two layers. -/
def twoLayers (x : (⟨S50000x256, .f32⟩ : BufTy).Contents (Elt Ideal)) (e : (⟨S2x800000, .i32⟩ : BufTy).Contents (Elt Ideal))
    (w1 : (⟨S256x256, .f32⟩ : BufTy).Contents (Elt Ideal)) (b1 : (⟨S256, .f32⟩ : BufTy).Contents (Elt Ideal))
    (w2 : (⟨S256x128, .f32⟩ : BufTy).Contents (Elt Ideal)) (b2 : (⟨S128, .f32⟩ : BufTy).Contents (Elt Ideal)) :
    (⟨S50000x128, .f32⟩ : BufTy).Contents (Elt Ideal) :=
  addRow (M := 50000) (N := 128)
    (aggregate128 (srcIdx e) (dstIdx e) (edgeNorm (srcIdx e) (dstIdx e))
      (matProd (M := 50000) (K := 256) (N := 128)
        (reluAddRow (M := 50000) (N := 256)
          (aggregate256 (srcIdx e) (dstIdx e) (edgeNorm (srcIdx e) (dstIdx e)) (matProd (M := 50000) (K := 256) (N := 256) x w1))
          (fun j => b1 (ix1 j)))
        w2))
    (fun j => b2 (ix1 j))

end Cert.KernelIdeal.Edge

end
-- ==== Proof.KernelValue.lean ====
/-
  What the kernel's program leaves in its result array: the fold through @main's segments, read boundary by boundary.
  The operations before the first pallas_call leave the (m ((c : Thread nD τ).loc main_arg1))' source nodes, target nodes and weights; every later
  stretch and region leaves them, and the arguments, as they were; region 0 leaves the product x · W1; the next
  stretch its aggregation along the (m ((c : Thread nD τ).loc main_arg1)) and the first bias as one row; region 1 the maximum with zero of their sum;
  region 2 that matrix times W2; the last stretch its aggregation and the second bias as one row; region 3 their sum.
  Together: the result array ends holding `twoLayers` of the six arguments.
-/
import proofs.«166939_j661424964180_1_alg».proof.Proof.Gen.KernelIdeal.Frame
import proofs.«166939_j661424964180_1_alg».proof.Proof.RegionMatmul0
import proofs.«166939_j661424964180_1_alg».proof.Proof.RegionBias1
import proofs.«166939_j661424964180_1_alg».proof.Proof.RegionMatmul2
import proofs.«166939_j661424964180_1_alg».proof.Proof.RegionBias3
import proofs.«166939_j661424964180_1_alg».proof.Proof.HostReads
import proofs.«166939_j661424964180_1_alg».proof.Proof.Layers

set_option maxRecDepth 16384

noncomputable section

namespace Cert.KernelIdeal.KernelValue

open Cert.KernelIdeal Cert.KernelIdeal.Gen Cert.KernelIdeal.Edge Cert.KernelIdeal.HostReads Cert.KernelIdeal.RegionValue Cert.Gcn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## At the first region's entry -/

theorem W3_src : W3 m ρ c (Proc.devRef .tc main_v3) = srcIdx (m ((c : Thread nD τ).loc main_arg1)) := prefix_src (W0 m ρ c)
theorem W3_dst : W3 m ρ c (Proc.devRef .tc main_v6) = dstIdx (m ((c : Thread nD τ).loc main_arg1)) := prefix_dst (W0 m ρ c)
theorem W3_norm : W3 m ρ c (Proc.devRef .tc main_v29) = edgeNorm (srcIdx (m ((c : Thread nD τ).loc main_arg1))) (dstIdx (m ((c : Thread nD τ).loc main_arg1))) := prefix_norm (W0 m ρ c)
theorem W3_arg0 : W3 m ρ c (Proc.devRef .tc main_arg0) = m ((c : Thread nD τ).loc main_arg0) := prefix_arg0 (W0 m ρ c)
theorem W3_arg2 : W3 m ρ c (Proc.devRef .tc main_arg2) = m ((c : Thread nD τ).loc main_arg2) := prefix_arg2 (W0 m ρ c)
theorem W3_arg3 : W3 m ρ c (Proc.devRef .tc main_arg3) = m ((c : Thread nD τ).loc main_arg3) := prefix_arg3 (W0 m ρ c)
theorem W3_arg4 : W3 m ρ c (Proc.devRef .tc main_arg4) = m ((c : Thread nD τ).loc main_arg4) := prefix_arg4 (W0 m ρ c)
theorem W3_arg5 : W3 m ρ c (Proc.devRef .tc main_arg5) = m ((c : Thread nD τ).loc main_arg5) := prefix_arg5 (W0 m ρ c)

/-! ## After region 0: the first product -/

theorem W4_src : W4 m ρ c (Proc.devRef .tc main_v3) = srcIdx (m ((c : Thread nD τ).loc main_arg1)) := (W4_of_ne m ρ c main_v3 (by decide)).trans (W3_src m ρ c)
theorem W4_dst : W4 m ρ c (Proc.devRef .tc main_v6) = dstIdx (m ((c : Thread nD τ).loc main_arg1)) := (W4_of_ne m ρ c main_v6 (by decide)).trans (W3_dst m ρ c)
theorem W4_norm : W4 m ρ c (Proc.devRef .tc main_v29) = edgeNorm (srcIdx (m ((c : Thread nD τ).loc main_arg1))) (dstIdx (m ((c : Thread nD τ).loc main_arg1))) :=
  (W4_of_ne m ρ c main_v29 (by decide)).trans (W3_norm m ρ c)
theorem W4_arg3 : W4 m ρ c (Proc.devRef .tc main_arg3) = m ((c : Thread nD τ).loc main_arg3) := (W4_of_ne m ρ c main_arg3 (by decide)).trans (W3_arg3 m ρ c)
theorem W4_arg4 : W4 m ρ c (Proc.devRef .tc main_arg4) = m ((c : Thread nD τ).loc main_arg4) := (W4_of_ne m ρ c main_arg4 (by decide)).trans (W3_arg4 m ρ c)
theorem W4_arg5 : W4 m ρ c (Proc.devRef .tc main_arg5) = m ((c : Thread nD τ).loc main_arg5) := (W4_of_ne m ρ c main_arg5 (by decide)).trans (W3_arg5 m ρ c)

theorem W4_prod : W4 m ρ c (Proc.devRef .tc main_v30)
    = matProd (M := 50000) (K := 256) (N := 256) (m ((c : Thread nD τ).loc main_arg0)) (m ((c : Thread nD τ).loc main_arg2)) :=
  (W4_arr m ρ c 2).trans ((final0 (V3 m ρ) c).trans
    (congrArg₂ (matProd (M := 50000) (K := 256) (N := 256)) (W3_arg0 m ρ c) (W3_arg2 m ρ c)))

/-! ## After the stretch between regions 0 and 1: the aggregation and the bias row -/

theorem W5_src : W5 m ρ c (Proc.devRef .tc main_v3) = srcIdx (m ((c : Thread nD τ).loc main_arg1)) := (mid_src (W4 m ρ c)).trans (W4_src m ρ c)
theorem W5_dst : W5 m ρ c (Proc.devRef .tc main_v6) = dstIdx (m ((c : Thread nD τ).loc main_arg1)) := (mid_dst (W4 m ρ c)).trans (W4_dst m ρ c)
theorem W5_norm : W5 m ρ c (Proc.devRef .tc main_v29) = edgeNorm (srcIdx (m ((c : Thread nD τ).loc main_arg1))) (dstIdx (m ((c : Thread nD τ).loc main_arg1))) := (mid_norm (W4 m ρ c)).trans (W4_norm m ρ c)
theorem W5_arg4 : W5 m ρ c (Proc.devRef .tc main_arg4) = m ((c : Thread nD τ).loc main_arg4) := (mid_arg4 (W4 m ρ c)).trans (W4_arg4 m ρ c)
theorem W5_arg5 : W5 m ρ c (Proc.devRef .tc main_arg5) = m ((c : Thread nD τ).loc main_arg5) := (mid_arg5 (W4 m ρ c)).trans (W4_arg5 m ρ c)

theorem W5_agg : W5 m ρ c (Proc.devRef .tc main_v43)
    = aggregate256 (srcIdx (m ((c : Thread nD τ).loc main_arg1))) (dstIdx (m ((c : Thread nD τ).loc main_arg1))) (edgeNorm (srcIdx (m ((c : Thread nD τ).loc main_arg1))) (dstIdx (m ((c : Thread nD τ).loc main_arg1))))
        (matProd (M := 50000) (K := 256) (N := 256) (m ((c : Thread nD τ).loc main_arg0)) (m ((c : Thread nD τ).loc main_arg2))) := by
  refine (mid_agg (W4 m ρ c)).trans ?_
  rw [W4_src, W4_dst, W4_norm, W4_prod]

theorem W5_bias : W5 m ρ c (Proc.devRef .tc main_v44)
    = shapeCast S1x256 (m ((c : Thread nD τ).loc main_arg3)) Cert.KernelIdeal.Facts₀.shapeCasts_S256_S1x256 := by
  refine (mid_bias (W4 m ρ c)).trans ?_
  rw [W4_arg3]

/-! ## After region 1: the first layer -/

/-- The first layer's node matrix. -/
abbrev layer1 : (⟨S50000x256, .f32⟩ : BufTy).Contents (Elt Ideal) :=
  reluAddRow (M := 50000) (N := 256)
    (aggregate256 (srcIdx (m ((c : Thread nD τ).loc main_arg1))) (dstIdx (m ((c : Thread nD τ).loc main_arg1))) (edgeNorm (srcIdx (m ((c : Thread nD τ).loc main_arg1))) (dstIdx (m ((c : Thread nD τ).loc main_arg1))))
      (matProd (M := 50000) (K := 256) (N := 256) (m ((c : Thread nD τ).loc main_arg0)) (m ((c : Thread nD τ).loc main_arg2))))
    (fun j => m ((c : Thread nD τ).loc main_arg3) (ix1 j))

theorem W6_layer : W6 m ρ c (Proc.devRef .tc main_v45) = layer1 m c :=
  (W6_arr m ρ c 2).trans ((final1 (V5 m ρ) c).trans
    (congrArg₂ (reluAddRow (M := 50000) (N := 256)) (W5_agg m ρ c)
      (funext fun j => (congrFun (W5_bias m ρ c) (ix2 (0 : Fin 1) j)).trans (row_of_vector _ _ j))))

theorem W6_src : W6 m ρ c (Proc.devRef .tc main_v3) = srcIdx (m ((c : Thread nD τ).loc main_arg1)) := (W6_of_ne m ρ c main_v3 (by decide)).trans (W5_src m ρ c)
theorem W6_dst : W6 m ρ c (Proc.devRef .tc main_v6) = dstIdx (m ((c : Thread nD τ).loc main_arg1)) := (W6_of_ne m ρ c main_v6 (by decide)).trans (W5_dst m ρ c)
theorem W6_norm : W6 m ρ c (Proc.devRef .tc main_v29) = edgeNorm (srcIdx (m ((c : Thread nD τ).loc main_arg1))) (dstIdx (m ((c : Thread nD τ).loc main_arg1))) :=
  (W6_of_ne m ρ c main_v29 (by decide)).trans (W5_norm m ρ c)
theorem W6_arg4 : W6 m ρ c (Proc.devRef .tc main_arg4) = m ((c : Thread nD τ).loc main_arg4) := (W6_of_ne m ρ c main_arg4 (by decide)).trans (W5_arg4 m ρ c)
theorem W6_arg5 : W6 m ρ c (Proc.devRef .tc main_arg5) = m ((c : Thread nD τ).loc main_arg5) := (W6_of_ne m ρ c main_arg5 (by decide)).trans (W5_arg5 m ρ c)

/-! ## After region 2: the second product -/

theorem W7_prod : W7 m ρ c (Proc.devRef .tc main_v46)
    = matProd (M := 50000) (K := 256) (N := 128) (layer1 m c) (m ((c : Thread nD τ).loc main_arg4)) :=
  (W7_arr m ρ c 2).trans ((final2 (V6 m ρ) c).trans
    (congrArg₂ (matProd (M := 50000) (K := 256) (N := 128)) (W6_layer m ρ c) (W6_arg4 m ρ c)))

theorem W7_src : W7 m ρ c (Proc.devRef .tc main_v3) = srcIdx (m ((c : Thread nD τ).loc main_arg1)) := (W7_of_ne m ρ c main_v3 (by decide)).trans (W6_src m ρ c)
theorem W7_dst : W7 m ρ c (Proc.devRef .tc main_v6) = dstIdx (m ((c : Thread nD τ).loc main_arg1)) := (W7_of_ne m ρ c main_v6 (by decide)).trans (W6_dst m ρ c)
theorem W7_norm : W7 m ρ c (Proc.devRef .tc main_v29) = edgeNorm (srcIdx (m ((c : Thread nD τ).loc main_arg1))) (dstIdx (m ((c : Thread nD τ).loc main_arg1))) :=
  (W7_of_ne m ρ c main_v29 (by decide)).trans (W6_norm m ρ c)
theorem W7_arg5 : W7 m ρ c (Proc.devRef .tc main_arg5) = m ((c : Thread nD τ).loc main_arg5) := (W7_of_ne m ρ c main_arg5 (by decide)).trans (W6_arg5 m ρ c)

/-! ## After the last stretch and region 3: the result -/

theorem W8_agg : W8 m ρ c (Proc.devRef .tc main_v59)
    = aggregate128 (srcIdx (m ((c : Thread nD τ).loc main_arg1))) (dstIdx (m ((c : Thread nD τ).loc main_arg1))) (edgeNorm (srcIdx (m ((c : Thread nD τ).loc main_arg1))) (dstIdx (m ((c : Thread nD τ).loc main_arg1))))
        (matProd (M := 50000) (K := 256) (N := 128) (layer1 m c) (m ((c : Thread nD τ).loc main_arg4))) := by
  refine (last_agg (W7 m ρ c)).trans ?_
  rw [W7_src, W7_dst, W7_norm, W7_prod]

theorem W8_bias : W8 m ρ c (Proc.devRef .tc main_v60)
    = shapeCast S1x128 (m ((c : Thread nD τ).loc main_arg5)) Cert.KernelIdeal.Facts₀.shapeCasts_S128_S1x128 := by
  refine (last_bias (W7 m ρ c)).trans ?_
  rw [W7_arg5]

/-- THE RESULT ARRAY after the run is the two layers of the six arguments. -/
theorem W9_result : W9 m ρ c (Proc.devRef .tc main_v61)
    = twoLayers (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) :=
  (W9_arr m ρ c 2).trans ((final3 (V8 m ρ) c).trans
    (congrArg₂ (addRow (M := 50000) (N := 128)) (W8_agg m ρ c)
      (funext fun j => (congrFun (W8_bias m ρ c) (ix2 (0 : Fin 1) j)).trans (row_of_vector _ _ j))))

end Cert.KernelIdeal.KernelValue

end
-- ==== Proof.RefValue.lean ====
/-
  The reference's result, read as the shared sparse functions of Shared.lean around its own dense operations: with s,
  d, n the source nodes, target nodes and weights of the edges,
    result = aggregate128 s d n (relu (aggregate256 s d n (x · W1) + b1) · W2) + b2,
  the products the host's `dot_general`, each bias a vector broadcast to one row and then over the rows, the relu the
  maximum with a splat of zero. Then, over the extended reals, the dense operations are the functions of Spec.lean.
-/
import proofs.«166939_j661424964180_1_alg».proof.Proof.RefRun
import proofs.«166939_j661424964180_1_alg».proof.Proof.Shared
import proofs.«166939_j661424964180_1_alg».proof.Proof.Layers
import proofs.«166939_j661424964180_1_alg».proof.Proof.Gen.KernelIdeal

noncomputable section

namespace Cert.ReferenceIdeal.RefValue

open Cert.ReferenceIdeal Cert.ReferenceIdeal.Gen Cert.ReferenceIdeal.RunValue Cert.KernelIdeal.Edge
open Idealize.ShloMosaic Idealize.ShloMosaic.TcCoe Idealize.ShloMosaic.ValueIdx Idealize.SL.Sem Cert.Gcn

section Shape
variable {F : FTy → Type} [FloatOps F]

/-- The reference's composed term is the two layers, the sparse half of each being the shared functions. -/
theorem res_shape (m : (ℓ : Loc nD τ sig) → Buf (Elt F) ℓ) (c : Dev nD) :
    res_main_v64 (F := F) m c =
      addf (aggregate128 (srcIdx (m ((c.tc : Thread nD τ).loc main_arg1))) (dstIdx (m ((c.tc : Thread nD τ).loc main_arg1)))
          (edgeNorm (srcIdx (m ((c.tc : Thread nD τ).loc main_arg1))) (dstIdx (m ((c.tc : Thread nD τ).loc main_arg1))))
          (Host.dotGeneral dot_S50000x256_S256x128_S50000x128_1_0_0_1_n_n none
            (maximumf
              (addf (aggregate256 (srcIdx (m ((c.tc : Thread nD τ).loc main_arg1))) (dstIdx (m ((c.tc : Thread nD τ).loc main_arg1)))
                  (edgeNorm (srcIdx (m ((c.tc : Thread nD τ).loc main_arg1))) (dstIdx (m ((c.tc : Thread nD τ).loc main_arg1))))
                  (Host.dotGeneral dot_S50000x256_S256x256_S50000x256_1_0_0_1_n_n none (m ((c.tc : Thread nD τ).loc main_arg0)) (m ((c.tc : Thread nD τ).loc main_arg2))))
                (broadcastInDim S50000x256 ![0, 1] bcast_S1x256_S50000x256_0_1 (broadcastInDim S1x256 ![1] bcast_S256_S1x256_1 (m ((c.tc : Thread nD τ).loc main_arg3)))))
              (broadcastInDim S50000x256 ![] bcast_S_S50000x256 (constant S_ .f32 0x00000000#32)))
            (m ((c.tc : Thread nD τ).loc main_arg4))))
        (broadcastInDim S50000x128 ![0, 1] bcast_S1x128_S50000x128_0_1 (broadcastInDim S1x128 ![1] bcast_S128_S1x128_1 (m ((c.tc : Thread nD τ).loc main_arg5)))) := by
  unfold res_main_v64 aggregate128 aggregate256 edgeNorm dinv degree colIdx srcIdx dstIdx
  rfl

end Shape

/-- The two records of the reference's products are the plain ones. -/
theorem dot1_plain : dot_S50000x256_S256x256_S50000x256_1_0_0_1_n_n = DotDims.plain 50000 256 256 := rfl
theorem dot2_plain : dot_S50000x256_S256x128_S50000x128_1_0_0_1_n_n = DotDims.plain 50000 256 128 := rfl

/-- THE REFERENCE'S RESULT over the extended reals is the two layers of the six arguments. -/
theorem res_eq (m : (ℓ : Loc nD τ sig) → Buf (Elt Ideal) ℓ) (c : Dev nD) :
    res_main_v64 (F := Ideal) m c
      = twoLayers (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [res_shape, dot1_plain, dot2_plain, dotGeneral_plain_eq, relu_bias_eq, dotGeneral_plain_eq, addf_bias_eq]
  rfl

end Cert.ReferenceIdeal.RefValue

end
-- ==== Proof.lean ====
/-
  A two-layer graph convolution: out = Â · relu(Â · (x W1) + b1) · W2 + b2, where Â aggregates node rows along the
  edges (self-loops appended) with the symmetric weights deg^(-1/2)(src) · deg^(-1/2)(dst).
  The kernel's program computes the two products x W1 and h W2 and the two bias additions (the first followed by the
  maximum with zero) in four pallas_calls, each over ten blocks of 5000 rows, and everything sparse (degrees,
  weights, gather, scale, scatter-add) by host operations; the reference computes the dense parts by host operations
  too, and the sparse parts by the very same operations. So over the extended reals, where a change of float format is
  the identity and a product accumulated into zero is the product, both results are ONE function of the six
  arguments, `Cert.KernelIdeal.Edge.twoLayers`: the sparse half is carried as opaque shared functions (it is never
  opened), and the dense half is read index by index (a block of a product of matrices is the product of the block
  of rows; a bias row added to a block of rows is the bias row added to the rows). No law of arithmetic beyond that
  is used, so the precondition (finite inputs) is not needed for the value.
  The frames of the two kernel programs are the generated frame certificates; the reference's frame is its run.
-/
import proofs.«166939_j661424964180_1_alg».proof.Defs
import proofs.«166939_j661424964180_1_alg».proof.Proof.Gen.Kernel.Frame
import proofs.«166939_j661424964180_1_alg».proof.Proof.Gen.KernelIdeal.Frame
import proofs.«166939_j661424964180_1_alg».proof.Proof.Gen.Pre_finite_inputs
import proofs.«166939_j661424964180_1_alg».proof.Proof.KernelRun
import proofs.«166939_j661424964180_1_alg».proof.Proof.KernelValue
import proofs.«166939_j661424964180_1_alg».proof.Proof.RefRun
import proofs.«166939_j661424964180_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame certificate. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.RunValue.run (F := Ideal) m ρ)

/-- The ideal pass rewrote nothing. -/
theorem preserves : Cert.preserves_Kernel_KernelIdeal := trivial

/-- Both programs end with the two layers of the (agreeing) arguments in their result arrays. -/
theorem algebraic : Cert.algebraic_KernelIdeal_ReferenceIdeal := by
  intro m ρ m' ρ' _ hagree
  refine ⟨fun c => Cert.KernelIdeal.Edge.twoLayers
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.W9_result m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.RunValue.run (F := Ideal) m' ρ')
    rw [Cert.ReferenceIdeal.RefValue.res_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
